-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x64 .f32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : FVec F S800000 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S64x64 .f32) (main_arg11 : FVec F S64 .f32) (main_arg12 : FVec F S128x64 .f32) (main_arg13 : FVec F S64 .f32) (main_arg14 : FVec F S64x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S64x128 : Shape := ⟨2, ![64, 128]⟩
abbrev S50000x64 : Shape := ⟨2, ![50000, 64]⟩

abbrev nBuf : Space → Nat
  | .hbm => 67
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S50000x128, .bf16⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .bf16⟩
  | .hbm, ⟨26, _⟩ => ⟨S800000x128, .f32⟩
  | .hbm, ⟨27, _⟩ => ⟨S800000x1, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x128, .f32⟩
  | .hbm, ⟨35, _⟩ => ⟨S50000x128, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .bf16⟩
  | .hbm, ⟨45, _⟩ => ⟨S800000x128, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S128x128, .f32⟩
  | .hbm, ⟨54, _⟩ => ⟨S128, .f32⟩
  | .hbm, ⟨55, _⟩ => ⟨S_, .f32⟩
  | .hbm, ⟨56, _⟩ => ⟨S64x64, .f32⟩
  | .hbm, ⟨57, _⟩ => ⟨S64x128, .f32⟩
  | .hbm, ⟨58, _⟩ => ⟨S64x128, .f32⟩
  | .hbm, ⟨59, _⟩ => ⟨S128x128, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S50000x128, .f32⟩
  | .hbm, ⟨65, _⟩ => ⟨S50000x64, .f32⟩
  | .hbm, ⟨66, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x64_S128x64_S128x128_d1 : Shape.Concatenates [S128x64, S128x64] S128x128 1
  concatenates_S64_S64_S128_d0 : Shape.Concatenates [S64, S64] S128 0
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  shapeCasts_S128x128_S128x128 : S128x128.ShapeCasts S128x128
  slices_S50000x128_S50000x64_0_0 : S50000x128.Slices ![0, 0] S50000x64
  slices_S50000x128_S50000x64_0_64 : S50000x128.Slices ![0, 64] S50000x64
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S50000x128, .f32⟩
  | .hbm, ⟨17, _⟩ => ⟨S800000x1, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_cst : Ref sig .tc := ⟨.hbm, 36, rfl⟩
abbrev main_call0_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_cst : Ref sig .tc := ⟨.hbm, 59, rfl⟩
abbrev main_call1_v0 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call3_cst : Ref sig .tc := ⟨.hbm, 77, rfl⟩
abbrev main_call3_v0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Layers.lean ====
/-
  The layers of a two-layer graph convolution with two small heads, as whole-array functions over
  the extended reals.

  A node-feature array `h : [50000, 128]` is taken through
      support = h · W                       (a dense product, row by row)
      agg[r]  = Σ over edges e with row(e) = r of  vals[e] · support[col(e)]
  and the layer's output is `max (agg + b) 0`.  Two such layers give the hidden array `H`; each
  head is `max (H · Wa + ba) 0 · Wb + bb` with `Wa : [128, 64]`, `Wb : [64, 64]`.  The same heads can
  be computed PACKED: with `W1 = [Wm1 | Wv1]` and `W2 = diag (Wm2, Wv2)` the 128-wide array
  `max (H · W1 + b1) 0 · W2 + b2` holds the first head in its columns 0 … 63 and the second in its
  columns 64 … 127, because the off-diagonal blocks of `W2` are zero.

  The edge aggregation is carried as ONE function `aggregate` of the support array (a gather of the
  rows `col(e)`, a product with the edge values, a scatter-add onto the rows `row(e)`): both
  programs apply it verbatim, so nothing is ever said about which rows it reads.
-/
import proofs.«132768_j6597069767366_2_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe

/-- A float array of shape `S` at the ideal instance: an extended real per index. -/
abbrev Mat (S : Shape) := FVec Ideal S .f32
/-- A 32-bit integer array of shape `S`. -/
abbrev IdxArr (S : Shape) := (⟨S, .i32⟩ : BufTy).Contents (Elt Ideal)

/-- The all-zero `[50000, 128]` array. -/
def zeros128 : Mat S50000x128 :=
  broadcastInDim S50000x128 ![] bcast_S_S50000x128 (constant S_ .f32 0x00000000#32)
/-- The all-zero `[50000, 64]` array. -/
def zeros64 : Mat S50000x64 :=
  broadcastInDim S50000x64 ![] bcast_S_S50000x64 (constant S_ .f32 0x00000000#32)
/-- A `[1, 128]` row repeated down 50000 rows. -/
def rowBias128 (B : Mat S1x128) : Mat S50000x128 :=
  broadcastInDim S50000x128 ![0, 1] bcast_S1x128_S50000x128_0_1 B
/-- A `[1, 64]` row repeated down 50000 rows. -/
def rowBias64 (B : Mat S1x64) : Mat S50000x64 :=
  broadcastInDim S50000x64 ![0, 1] bcast_S1x64_S50000x64_0_1 B
/-- A length-128 vector as a `[1, 128]` row. -/
def asRow128 (b : Mat S128) : Mat S1x128 := broadcastInDim S1x128 ![1] bcast_S128_S1x128_1 b
/-- A length-64 vector as a `[1, 64]` row. -/
def asRow64 (b : Mat S64) : Mat S1x64 := broadcastInDim S1x64 ![1] bcast_S64_S1x64_1 b

/-- `X · W` for `X : [50000, 128]`, `W : [128, 128]`. -/
def mm128 (X : Mat S50000x128) (W : Mat S128x128) : Mat S50000x128 :=
  Host.dotGeneral dot_S50000x128_S128x128_S50000x128_1_0_0_1_n_n none X W
/-- `X · W` for `X : [50000, 128]`, `W : [128, 64]`. -/
def mm128x64 (X : Mat S50000x128) (W : Mat S128x64) : Mat S50000x64 :=
  Host.dotGeneral dot_S50000x128_S128x64_S50000x64_1_0_0_1_n_n none X W
/-- `X · W` for `X : [50000, 64]`, `W : [64, 64]`. -/
def mm64 (X : Mat S50000x64) (W : Mat S64x64) : Mat S50000x64 :=
  Host.dotGeneral dot_S50000x64_S64x64_S50000x64_1_0_0_1_n_n none X W

/-- `max (A + B) 0`, the row `B : [1, 128]` added to every row of `A`. -/
def preact (A : Mat S50000x128) (B : Mat S1x128) : Mat S50000x128 :=
  maximumf (addf A (rowBias128 B)) zeros128
/-- `max (A + B) 0`, the row `B : [1, 64]` added to every row of `A`. -/
def preact64 (A : Mat S50000x64) (B : Mat S1x64) : Mat S50000x64 :=
  maximumf (addf A (rowBias64 B)) zeros64

/-- The column indices with a negative index wrapped once by the number of rows, as a column. -/
def wrapCols (cols : IdxArr S800000) : IdxArr S800000x1 :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 50000#32))) cols)

/-- The edge aggregation of a support array `S`: `agg[r] = Σ_{e : row e = r} vals[e] · S[col e]`,
    spelt as the gather of the rows `col e`, the product with the edge values and the
    scatter-add onto the rows `row e` of a zero array. -/
def aggregate (rows cols : IdxArr S800000) (vals : Mat S800000) (S : Mat S50000x128) : Mat S50000x128 :=
  Host.scatterAdd scatter_S50000x128_S800000x1_S800000x128_1_0_0_1 zeros128
    (broadcastInDim S800000x1 ![0] bcast_S800000_S800000x1_0 rows)
    (mulf (broadcastInDim S800000x128 ![0, 1] bcast_S800000x1_S800000x128_0_1
            (broadcastInDim S800000x1 ![0] bcast_S800000_S800000x1_0 vals))
          (Host.gather gather_S50000x128_S800000x1_S800000x128_1_0_n_n_0_1_1128 S (wrapCols cols)))

/-- One graph-convolution layer up to its aggregation: `aggregate (h · W)`. -/
def conv (rows cols : IdxArr S800000) (vals : Mat S800000) (h : Mat S50000x128) (W : Mat S128x128) :
    Mat S50000x128 :=
  aggregate rows cols vals (mm128 h W)

/-- The hidden array after both layers. -/
def hidden (x : Mat S50000x128) (rows cols : IdxArr S800000) (vals : Mat S800000)
    (W0 : Mat S128x128) (b0 : Mat S128) (W1 : Mat S128x128) (b1 : Mat S128) : Mat S50000x128 :=
  preact (conv rows cols vals (preact (conv rows cols vals x W0) (asRow128 b0)) W1) (asRow128 b1)

/-- One head: `max (H · Wa + ba) 0 · Wb + bb`. -/
def head (H : Mat S50000x128) (Wa : Mat S128x64) (ba : Mat S64) (Wb : Mat S64x64) (bb : Mat S64) :
    Mat S50000x64 :=
  addf (mm64 (preact64 (mm128x64 H Wa) (asRow64 ba)) Wb) (rowBias64 (asRow64 bb))

/-- Both heads packed in 128 columns: `max (H · W1 + B1) 0 · W2 + B2`. -/
def packed (H : Mat S50000x128) (W1 : Mat S128x128) (B1 : Mat S1x128) (W2 : Mat S128x128)
    (B2 : Mat S1x128) : Mat S50000x128 :=
  addf (mm128 (preact (mm128 H W1) B1) W2) (rowBias128 B2)

end Cert.Gcn

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.RegionPlain.lean ====
/-
  The first dense product, region by blocks of rows.

  The region's grid has ten points; point `t` reads rows `5000·t … 5000·t + 4999` of the
  `[50000, 128]` input, the whole `[128, 128]` weight, and writes the same rows of the output.
  At the ideal instance the body's value at `(p, q)` of its block is `Σ_k x[p, k] · w[k, q]`
  (a change of float format is the identity), which is entry `(5000·t + p, q)` of the product of
  the whole arrays.  The ten blocks tile the output, so after the region the output array IS the
  product of the input array by the weight.
-/
import proofs.«132768_j6597069767366_2_alg».proof.Proof.Gen.KernelIdeal.Frame
import proofs.«132768_j6597069767366_2_alg».proof.Proof.Layers
import proofs.«132768_j6597069767366_2_alg».proof.Proof.LibDot2
import Idealize.ShloMosaic.Lib.Pipeline.Value
import Idealize.ShloMosaic.Lib.ValueIdx
import Idealize.ShloMosaic.PureOps.Ideal.Laws

set_option maxRecDepth 16384

noncomputable section

namespace Cert.Gcn.Plain

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's value at `(p, q)` of its block: the contraction of row `p` of the input block with
    column `q` of the weight. -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Dot2.matmul_zero_mm_apply (M := 5000) (K := 128) (N := 128) (φ₁ := .bf16) (φ₂ := .bf16) _ none x0 x1 p q

/-- The product of the whole arrays at `(P, q)`. -/
theorem mm128_apply (A : Cert.Gcn.Mat Cert.ReferenceIdeal.S50000x128) (W : Cert.Gcn.Mat Cert.ReferenceIdeal.S128x128)
    (P : Fin 50000) (q : Fin 128) :
    Cert.Gcn.mm128 A W (ix2 P q) = ∑ k : Fin 128, A (ix2 P k) * W (ix2 k q) :=
  Dot2.host_dotGeneral_mm_apply (M := 50000) (K := 128) (N := 128) (φ₁ := .f32) (φ₂ := .f32) _ none A W P q

/-- A block of rows `5000·r …` of `A` and the whole weight give, through the body, the same rows of `A · W`. -/
theorem pay_block (A : Cert.Gcn.Mat Cert.ReferenceIdeal.S50000x128) (W : Cert.Gcn.Mat Cert.ReferenceIdeal.S128x128)
    (x0 : Vec Ideal S5000x128 .f32) (x1 : Vec Ideal S128x128 .f32) (r : ℕ) (hr : r < 10)
    (hx0 : ∀ (p : Fin 5000) (k : Fin 128), x0 (ix2 p k) = A (ix2 ⟨5000 * r + p.val, by omega⟩ k))
    (hx1 : ∀ (k q : Fin 128), x1 (ix2 k q) = W (ix2 k q))
    (j : S5000x128.Idx) (i : Cert.ReferenceIdeal.S50000x128.Idx)
    (hi0 : (i 0).val = 5000 * r + (j 0).val) (hi1 : (i 1).val = (j 1).val) :
    k0_pay1 (F := Ideal) x0 x1 j = Cert.Gcn.mm128 A W i := by
  obtain ⟨p, q, rfl⟩ : ∃ (p : Fin 5000) (q : Fin 128), j = ix2 p q := ⟨j 0, j 1, eq_ix2 j⟩
  have hb : 5000 * r + p.val < 50000 := by have := p.isLt; omega
  obtain ⟨P, Q, rfl⟩ : ∃ (P : Fin 50000) (Q : Fin 128), i = ix2 P Q := ⟨i 0, i 1, eq_ix2 i⟩
  have hP : P = ⟨5000 * r + p.val, hb⟩ := Fin.ext hi0
  have hQ : Q = q := Fin.ext hi1
  subst hP hQ
  rw [pay_apply, mm128_apply]
  refine Finset.sum_congr rfl fun k _ => ?_
  rw [hx0, hx1]

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the input's and the output's block row index is the
    point's number, the weight's block is the whole array. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point `t` writes back is block `t` of the product of the whole arrays. -/
theorem flushed (c : Dev nD) (t : Fin cfg0.N) :
    (dat0 (F := Ideal) V c).flushed 2 t
      = ((cfg0.win 2).blk t).view.read (Elt Ideal) (Cert.Gcn.mm128 (V c main_arg0) (V c main_arg4)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x128) origin_zero]
  obtain ⟨e0, e1, e2, e3, e4, e5, e6⟩ := index_facts t
  funext j
  refine pay_block (V c main_arg0) (V c main_arg4) (iblk0 V c 0 t) (iblk0 V c 1 t) t.val e6 ?_ ?_ j _ ?_ ?_
  · intro p k
    show V c main_arg0 (((cfg0.win 0).blk t).view.emb (ix2 p k)) = _
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  · intro k q
    show V c main_arg4 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 5000 + 1 * (j 0).val = 5000 * t.val + (j 0).val; omega
  · show win0_2.index t (1 : Fin 2) * 128 + 1 * (j 1).val = (j 1).val; omega

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every block row of the output is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- The ten blocks of 5000 rows tile the output: row `r` lies in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the region the output array is the product of the input array by the weight, as the region found them. -/
theorem final (c : Dev nD) :
    (dat0 (F := Ideal) V c).arrAt 2 cfg0.N = Cert.Gcn.mm128 (V c main_arg0) (V c main_arg4) :=
  (dat0 V c).arrAt_eq_of_cover 2 _ (fun t _ => flushed V c t) cover

end Cert.Gcn.Plain

end
-- ==== Proof.RegionPreact.lean ====
/-
  The second dense product with the previous layer's bias and rectifier fused in, by blocks of rows.

  Point `t` of the ten-point grid reads rows `5000·t … 5000·t + 4999` of the aggregated array, the
  whole `[1, 128]` bias row and the whole `[128, 128]` weight, and writes the same rows of the
  output.  At the ideal instance the body's value at `(p, q)` of its block is
      Σ_k max (a[p, k] + b[k]) 0 · w[k, q]
  (a change of float format is the identity), which is entry `(5000·t + p, q)` of
  `max (A + B) 0 · W` of the whole arrays.  The ten blocks tile the output.
-/
import proofs.«132768_j6597069767366_2_alg».proof.Proof.Gen.KernelIdeal.Frame
import proofs.«132768_j6597069767366_2_alg».proof.Proof.Layers
import proofs.«132768_j6597069767366_2_alg».proof.Proof.LibDot2
import Idealize.ShloMosaic.Lib.Pipeline.Value
import Idealize.ShloMosaic.Lib.ValueIdx
import Idealize.ShloMosaic.PureOps.Ideal.Laws

set_option maxRecDepth 16384

noncomputable section

namespace Cert.Gcn.Preact

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero of the rectifier, as both programs spell it: the extended real the all-zero word denotes. -/
abbrev z : EReal := Ideal.ofBits .f32 0x00000000#32

/-- The body's value at `(p, q)` of its block. -/
theorem pay_apply (x0 : Vec Ideal S5000x128 .f32) (x1 : Vec Ideal S1x128 .f32) (x2 : Vec Ideal S128x128 .f32)
    (p : Fin 5000) (q : Fin 128) :
    k1_pay1 (F := Ideal) x0 x1 x2 (ix2 p q)
      = ∑ k : Fin 128, max (x0 (ix2 p k) + x1 (ix2 0 k)) z * x2 (ix2 k q) := by
  unfold k1_pay1
  refine (Dot2.matmul_zero_mm_apply (M := 5000) (K := 128) (N := 128) (φ₁ := .bf16) (φ₂ := .bf16) _ none _ _ p q).trans ?_
  refine Finset.sum_congr rfl fun k _ => ?_
  rw [truncf_apply, truncf_apply, maximumf_apply, addf_apply, shapeCast_self, shapeCast_self, broadcast_apply,
    broadcastTo_apply x1 _ (ix2 p k) (ix2 0 k) (fun a => by match a with | ⟨0, _⟩ => rfl | ⟨1, _⟩ => rfl)]
  rfl

/-- The product of whole arrays at `(P, q)`. -/
theorem mm128_apply (A : Cert.Gcn.Mat Cert.ReferenceIdeal.S50000x128) (W : Cert.Gcn.Mat Cert.ReferenceIdeal.S128x128)
    (P : Fin 50000) (q : Fin 128) :
    Cert.Gcn.mm128 A W (ix2 P q) = ∑ k : Fin 128, A (ix2 P k) * W (ix2 k q) :=
  Dot2.host_dotGeneral_mm_apply (M := 50000) (K := 128) (N := 128) (φ₁ := .f32) (φ₂ := .f32) _ none A W P q

/-- The rectified sum of an array and a bias row at `(P, k)`. -/
theorem preact_apply (A : Cert.Gcn.Mat Cert.ReferenceIdeal.S50000x128) (B : Cert.Gcn.Mat Cert.ReferenceIdeal.S1x128)
    (P : Fin 50000) (k : Fin 128) :
    Cert.Gcn.preact A B (ix2 P k) = max (A (ix2 P k) + B (ix2 0 k)) z := by
  unfold Cert.Gcn.preact Cert.Gcn.rowBias128 Cert.Gcn.zeros128
  rw [maximumf_apply, addf_apply,
    broadcastInDim_apply _ _ B (ix2 P k) (ix2 0 k) (fun a => by match a with | ⟨0, _⟩ => rfl | ⟨1, _⟩ => rfl)]
  rfl

/-- A block of rows `5000·r …` of `A`, the bias row and the whole weight give, through the body, the same rows
    of `max (A + B) 0 · W`. -/
theorem pay_block (A : Cert.Gcn.Mat Cert.ReferenceIdeal.S50000x128) (B : Cert.Gcn.Mat Cert.ReferenceIdeal.S1x128)
    (W : Cert.Gcn.Mat Cert.ReferenceIdeal.S128x128)
    (x0 : Vec Ideal S5000x128 .f32) (x1 : Vec Ideal S1x128 .f32) (x2 : Vec Ideal S128x128 .f32) (r : ℕ) (hr : r < 10)
    (hx0 : ∀ (p : Fin 5000) (k : Fin 128), x0 (ix2 p k) = A (ix2 ⟨5000 * r + p.val, by omega⟩ k))
    (hx1 : ∀ (k : Fin 128), x1 (ix2 0 k) = B (ix2 0 k))
    (hx2 : ∀ (k q : Fin 128), x2 (ix2 k q) = W (ix2 k q))
    (j : S5000x128.Idx) (i : Cert.ReferenceIdeal.S50000x128.Idx)
    (hi0 : (i 0).val = 5000 * r + (j 0).val) (hi1 : (i 1).val = (j 1).val) :
    k1_pay1 (F := Ideal) x0 x1 x2 j = Cert.Gcn.mm128 (Cert.Gcn.preact A B) W i := by
  obtain ⟨p, q, rfl⟩ : ∃ (p : Fin 5000) (q : Fin 128), j = ix2 p q := ⟨j 0, j 1, eq_ix2 j⟩
  have hb : 5000 * r + p.val < 50000 := by have := p.isLt; omega
  obtain ⟨P, Q, rfl⟩ : ∃ (P : Fin 50000) (Q : Fin 128), i = ix2 P Q := ⟨i 0, i 1, eq_ix2 i⟩
  have hP : P = ⟨5000 * r + p.val, hb⟩ := Fin.ext hi0
  have hQ : Q = q := Fin.ext hi1
  subst hP hQ
  rw [pay_apply, mm128_apply]
  refine Finset.sum_congr rfl fun k _ => ?_
  rw [preact_apply, hx0, hx1, hx2]

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the input's and the output's block row index is the
    point's number, the bias row's and the weight's block is the whole array. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- What point `t` writes back is block `t` of `max (A + B) 0 · W` of the whole arrays. -/
theorem flushed (c : Dev nD) (t : Fin cfg1.N) :
    (dat1 (F := Ideal) V c).flushed 3 t
      = ((cfg1.win 3).blk t).view.read (Elt Ideal)
          (Cert.Gcn.mm128 (Cert.Gcn.preact (V c main_v14) (V c main_v15)) (V c main_arg6)) := by
  show (cfg1.win 3).cut (grid1.coords t) ((dat1 V c).after 3 t) = _
  rw [after1_3]
  unfold out1_3
  rw [View.canon_unit_zero origin_zero]
  simp only [View.ld_unit_zero (S := S5000x128) origin_zero, View.ld_unit_zero (S := S1x128) origin_zero,
    View.ld_unit_zero (S := S128x128) origin_zero]
  obtain ⟨e0, e1, e2, e3, e4, e5, e6, e7, e8⟩ := index_facts t
  funext j
  refine pay_block (V c main_v14) (V c main_v15) (V c main_arg6) (iblk1 V c 0 t) (iblk1 V c 1 t) (iblk1 V c 2 t)
    t.val e8 ?_ ?_ ?_ j _ ?_ ?_
  · intro p k
    show V c main_v14 (((cfg1.win 0).blk t).view.emb (ix2 p k)) = _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  · intro k
    show V c main_v15 (((cfg1.win 1).blk t).view.emb (ix2 0 k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · intro k q
    show V c main_arg6 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · show win1_3.index t (0 : Fin 2) * 5000 + 1 * (j 0).val = 5000 * t.val + (j 0).val; omega
  · show win1_3.index t (1 : Fin 2) * 128 + 1 * (j 1).val = (j 1).val; omega

/-- An index of the output array is in point `t`'s block iff each coordinate is in the block's range on its axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v16).slice (win1_3.rect t)).set ↔ _
  rw [View.set_slice_whole, Rect.mem_set_unit]
  exact Iff.rfl

/-- Every block row of the output is some point's. -/
theorem index_onto : ∀ q0 : Fin 10, ∃ t : Fin cfg1.N, win1_3.index t = ![q0.val, 0] :=
  (by decide +kernel : ∀ q0 : Fin 10, ∃ t : Fin grid1.N, win1_3.index t = ![q0.val, 0])

/-- The ten blocks of 5000 rows tile the output: row `r` lies in the block of point `r / 5000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the region the output array is `max (A + B) 0 · W` of its three operands as the region found them. -/
theorem final (c : Dev nD) :
    (dat1 (F := Ideal) V c).arrAt 3 cfg1.N
      = Cert.Gcn.mm128 (Cert.Gcn.preact (V c main_v14) (V c main_v15)) (V c main_arg6) :=
  (dat1 V c).arrAt_eq_of_cover 3 _ (fun t _ => flushed V c t) cover

end Cert.Gcn.Preact

end
-- ==== Proof.RegionHeads.lean ====
/-
  The fused head region, by blocks of rows.

  Point `t` of the ten-point grid reads rows `5000·t … 5000·t + 4999` of the aggregated array,
  the whole of five small operands (a `[1, 128]` bias row, a `[128, 128]` weight, a second bias
  row, a second weight, a third bias row), and writes the same rows of the `[50000, 128]` output.
  At the ideal instance the body's value at `(p, q)` of its block is
      Σ_k max (Σ_j max (a[p, j] + b[j]) 0 · w1[j, k] + b1[k]) 0 · w2[k, q] + b2[q],
  every change of float format being the identity; that is entry `(5000·t + p, q)` of
  `packed (preact A B) W1 B1 W2 B2` of the whole arrays.  The ten blocks tile the output.
-/
import proofs.«132768_j6597069767366_2_alg».proof.Proof.Gen.KernelIdeal.Frame
import proofs.«132768_j6597069767366_2_alg».proof.Proof.Layers
import proofs.«132768_j6597069767366_2_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Heads

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- A `[1, 128]` row repeated down the 5000 rows of a block, at `(p, q)`: the row's
    entry `q`. -/
theorem bias_apply (b : FVec Ideal S1x128 .f32) (p : Fin 5000) (q : Fin 128) :
    broadcastTo S5000x128 b broadcasts_S1x128_S5000x128 (ix2 p q) = b (ix2 0 q) := by
  exact broadcastTo_apply b _ (ix2 p q) (ix2 0 q) (fun a => match a with | ⟨0, _⟩ => rfl | ⟨1, _⟩ => rfl)

/-- The body's product of a `[5000, 128]` block by a `[128, 128]` array into the zero accumulator, at `(p, q)`. -/
theorem blockmm_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Dot2.matmul_zero_mm_apply (M := 5000) (K := 128) (N := 128) (φ₁ := .bf16) (φ₂ := .bf16) _ none l r p q

/-- The body's value at `(p, q)` of its block: two dense products, each after a bias row and a clamp at zero,
    and a last bias row. -/
theorem pay_apply (x0 : Vec Ideal S5000x128 .f32) (x1 : Vec Ideal S1x128 .f32) (x2 : Vec Ideal S128x128 .f32)
    (x3 : Vec Ideal S1x128 .f32) (x4 : Vec Ideal S128x128 .f32) (x5 : Vec Ideal S1x128 .f32)
    (p : Fin 5000) (q : Fin 128) :
    k2_pay1 (F := Ideal) x0 x1 x2 x3 x4 x5 (ix2 p q)
      = (∑ k : Fin 128, max ((∑ j : Fin 128, max (x0 (ix2 p j) + x1 (ix2 0 j)) (Ideal.ofBits .f32 0x00000000#32)
            * x2 (ix2 j k)) + x3 (ix2 0 k)) (Ideal.ofBits .f32 0x00000000#32) * x4 (ix2 k q)) + x5 (ix2 0 q) := by
  unfold k2_pay1
  simp only [addf_apply, bias_apply, blockmm_apply, truncf_apply, shapeCast_self, maximumf_apply, broadcast_apply]
  rfl

/-- The product of the whole arrays at `(P, q)`. -/
theorem mm128_apply (A : Cert.Gcn.Mat Cert.ReferenceIdeal.S50000x128) (W : Cert.Gcn.Mat Cert.ReferenceIdeal.S128x128)
    (P : Fin 50000) (q : Fin 128) :
    Cert.Gcn.mm128 A W (ix2 P q) = ∑ k : Fin 128, A (ix2 P k) * W (ix2 k q) :=
  Dot2.host_dotGeneral_mm_apply (M := 50000) (K := 128) (N := 128) (φ₁ := .f32) (φ₂ := .f32) _ none A W P q

/-- A `[1, 128]` row repeated down the 50000 rows of the whole array, at `(P, q)`: the row's entry `q`. -/
theorem rowBias128_apply (B : Cert.Gcn.Mat Cert.ReferenceIdeal.S1x128) (P : Fin 50000) (q : Fin 128) :
    Cert.Gcn.rowBias128 B (ix2 P q) = B (ix2 0 q) := by
  unfold Cert.Gcn.rowBias128
  exact broadcastInDim_apply _ _ B (ix2 P q) (ix2 0 q) (fun a => match a with | ⟨0, _⟩ => rfl | ⟨1, _⟩ => rfl)

/-- The all-zero whole array at any index: the zero word's value. -/
theorem zeros128_apply (P : Fin 50000) (q : Fin 128) :
    Cert.Gcn.zeros128 (ix2 P q) = Ideal.ofBits .f32 0x00000000#32 := rfl

/-- The packed head of the pre-activated array at `(P, q)`. -/
theorem packed_apply (A : Cert.Gcn.Mat Cert.ReferenceIdeal.S50000x128) (B : Cert.Gcn.Mat Cert.ReferenceIdeal.S1x128)
    (W1 : Cert.Gcn.Mat Cert.ReferenceIdeal.S128x128) (B1 : Cert.Gcn.Mat Cert.ReferenceIdeal.S1x128)
    (W2 : Cert.Gcn.Mat Cert.ReferenceIdeal.S128x128) (B2 : Cert.Gcn.Mat Cert.ReferenceIdeal.S1x128)
    (P : Fin 50000) (q : Fin 128) :
    Cert.Gcn.packed (Cert.Gcn.preact A B) W1 B1 W2 B2 (ix2 P q)
      = (∑ k : Fin 128, max ((∑ j : Fin 128, max (A (ix2 P j) + B (ix2 0 j)) (Ideal.ofBits .f32 0x00000000#32)
            * W1 (ix2 j k)) + B1 (ix2 0 k)) (Ideal.ofBits .f32 0x00000000#32) * W2 (ix2 k q)) + B2 (ix2 0 q) := by
  unfold Cert.Gcn.packed Cert.Gcn.preact
  simp only [addf_apply, maximumf_apply, mm128_apply, rowBias128_apply, zeros128_apply]

/-- A block of rows `5000·r …` of `A` and the five small operands whole give, through the body, the same rows of
    the packed head of the pre-activated `A`. -/
theorem pay_block (A : Cert.Gcn.Mat Cert.ReferenceIdeal.S50000x128) (B : Cert.Gcn.Mat Cert.ReferenceIdeal.S1x128)
    (W1 : Cert.Gcn.Mat Cert.ReferenceIdeal.S128x128) (B1 : Cert.Gcn.Mat Cert.ReferenceIdeal.S1x128)
    (W2 : Cert.Gcn.Mat Cert.ReferenceIdeal.S128x128) (B2 : Cert.Gcn.Mat Cert.ReferenceIdeal.S1x128)
    (x0 : Vec Ideal S5000x128 .f32) (x1 : Vec Ideal S1x128 .f32) (x2 : Vec Ideal S128x128 .f32)
    (x3 : Vec Ideal S1x128 .f32) (x4 : Vec Ideal S128x128 .f32) (x5 : Vec Ideal S1x128 .f32)
    (r : ℕ) (hr : r < 10)
    (hx0 : ∀ (p : Fin 5000) (k : Fin 128), x0 (ix2 p k) = A (ix2 ⟨5000 * r + p.val, by omega⟩ k))
    (hx1 : ∀ k : Fin 128, x1 (ix2 0 k) = B (ix2 0 k))
    (hx2 : ∀ k q : Fin 128, x2 (ix2 k q) = W1 (ix2 k q))
    (hx3 : ∀ k : Fin 128, x3 (ix2 0 k) = B1 (ix2 0 k))
    (hx4 : ∀ k q : Fin 128, x4 (ix2 k q) = W2 (ix2 k q))
    (hx5 : ∀ k : Fin 128, x5 (ix2 0 k) = B2 (ix2 0 k))
    (j : S5000x128.Idx) (i : Cert.ReferenceIdeal.S50000x128.Idx)
    (hi0 : (i 0).val = 5000 * r + (j 0).val) (hi1 : (i 1).val = (j 1).val) :
    k2_pay1 (F := Ideal) x0 x1 x2 x3 x4 x5 j = Cert.Gcn.packed (Cert.Gcn.preact A B) W1 B1 W2 B2 i := by
  obtain ⟨p, q, rfl⟩ : ∃ (p : Fin 5000) (q : Fin 128), j = ix2 p q := ⟨j 0, j 1, eq_ix2 j⟩
  have hb : 5000 * r + p.val < 50000 := by have := p.isLt; omega
  obtain ⟨P, Q, rfl⟩ : ∃ (P : Fin 50000) (Q : Fin 128), i = ix2 P Q := ⟨i 0, i 1, eq_ix2 i⟩
  have hP : P = ⟨5000 * r + p.val, hb⟩ := Fin.ext hi0
  have hQ : Q = q := Fin.ext hi1
  subst hP hQ
  rw [pay_apply, packed_apply]
  simp only [hx0, hx1, hx2, hx3, hx4, hx5]

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps, decided over the grid: the aggregated array's and the output's block row index is the
    point's number, every small operand's block is its whole array. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 10 :=
  (by decide +kernel : ∀ t : Fin grid2.N, _)

/-- What point `t` writes back is block `t` of the packed head of the whole arrays. -/
theorem flushed (c : Dev nD) (t : Fin cfg2.N) :
    (dat2 (F := Ideal) V c).flushed 6 t
      = ((cfg2.win 6).blk t).view.read (Elt Ideal)
          (Cert.Gcn.packed (Cert.Gcn.preact (V c main_v30) (V c main_v38)) (V c main_v31) (V c main_v39)
            (V c main_v36) (V c main_v40)) := by
  show (cfg2.win 6).cut (grid2.coords t) ((dat2 V c).after 6 t) = _
  rw [after2_6]
  unfold out2_6
  rw [View.canon_unit_zero origin_zero]
  simp only [View.ld_unit_zero (S := S5000x128) origin_zero, View.ld_unit_zero (S := S128x128) origin_zero,
    View.ld_unit_zero (S := S1x128) origin_zero]
  obtain ⟨e00, e01, e10, e11, e20, e21, e30, e31, e40, e41, e50, e51, e60, e61, ht⟩ := index_facts t
  funext j
  refine pay_block (V c main_v30) (V c main_v38) (V c main_v31) (V c main_v39) (V c main_v36) (V c main_v40)
    (iblk2 V c 0 t) (iblk2 V c 1 t) (iblk2 V c 2 t) (iblk2 V c 3 t) (iblk2 V c 4 t) (iblk2 V c 5 t) t.val ht
    ?_ ?_ ?_ ?_ ?_ ?_ j _ ?_ ?_
  · intro p k
    show V c main_v30 (((cfg2.win 0).blk t).view.emb (ix2 p k)) = _
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 128 + 1 * k.val = k.val; omega
  · intro k
    show V c main_v38 (((cfg2.win 1).blk t).view.emb (ix2 0 k)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · intro k q
    show V c main_v31 (((cfg2.win 2).blk t).view.emb (ix2 k q)) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega
  · intro k
    show V c main_v39 (((cfg2.win 3).blk t).view.emb (ix2 0 k)) = _
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · intro k q
    show V c main_v36 (((cfg2.win 4).blk t).view.emb (ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = q.val; omega
  · intro k
    show V c main_v40 (((cfg2.win 5).blk t).view.emb (ix2 0 k)) = _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * k.val = k.val; omega
  · show win2_6.index t (0 : Fin 2) * 5000 + 1 * (j 0).val = 5000 * t.val + (j 0).val; omega
  · show win2_6.index t (1 : Fin 2) * 128 + 1 * (j 1).val = (j 1).val; omega

/-- An index of the output array is in point `t`'s block iff each coordinate is in the block's range on its axis. -/
theorem mem_block (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v41).slice (win2_6.rect t)).set ↔ _
  rw [View.set_slice_whole, Rect.mem_set_unit]
  exact Iff.rfl

/-- Every block row of the output is some point's. -/
theorem index_onto : ∀ q0 : Fin 10, ∃ t : Fin cfg2.N, win2_6.index t = ![q0.val, 0] :=
  (by decide +kernel : ∀ q0 : Fin 10, ∃ t : Fin grid2.N, win2_6.index t = ![q0.val, 0])

/-- The ten blocks of 5000 rows tile the output: row `r` lies in the block of point `r / 5000`. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := index_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_block]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- After the region the output array is the packed head of the pre-activated aggregated array, as the region
    found its operands. -/
theorem final (c : Dev nD) :
    (dat2 (F := Ideal) V c).arrAt 6 cfg2.N
      = Cert.Gcn.packed (Cert.Gcn.preact (V c main_v30) (V c main_v38)) (V c main_v31) (V c main_v39)
          (V c main_v36) (V c main_v40) :=
  (dat2 V c).arrAt_eq_of_cover 6 _ (fun t _ => flushed V c t) cover

end Cert.Gcn.Heads

end
-- ==== Proof.KernelValue.lean ====
/-
  The kernel program's two results as the layer functions of its arguments.

  @main is three kernel regions among stretches of host operations.  Its buffers' contents at each
  boundary are a fold from the launch memory: a region leaves its output array at what its
  blocks write back (the region modules: a product, a fused bias-rectifier-product, the packed
  head) and every other buffer as it was; a host stretch leaves each buffer it writes at its
  operation's value and every other buffer as it was.  Reading the fold back from the two results:
  each result is a 64-column slice of the packed head of the hidden array; the hidden array's
  operands are the edge aggregations of the two supports; and every leaf is an argument array as
  launched, because no region and no host operation writes an argument.

  The edge aggregation of the kernel program differs from the reference's only in gathering the
  support in a narrower float format and widening it back, which at the ideal instance is the
  identity; so it IS the function `aggregate`.
-/
import proofs.«132768_j6597069767366_2_alg».proof.Proof.Gen.KernelIdeal.Frame
import proofs.«132768_j6597069767366_2_alg».proof.Proof.Layers
import proofs.«132768_j6597069767366_2_alg».proof.Proof.RegionPlain
import proofs.«132768_j6597069767366_2_alg».proof.Proof.RegionPreact
import proofs.«132768_j6597069767366_2_alg».proof.Proof.RegionHeads
import Idealize.ShloMosaic.Lib.StableHlo.Run

set_option maxRecDepth 16384

noncomputable section

namespace Cert.Gcn.Kernel

open Cert.KernelIdeal Cert.KernelIdeal.Gen
open Idealize.ShloMosaic Idealize.ShloMosaic.TcCoe Idealize.SL.Sem Idealize.ShloMosaic.StableHlo

/-- The kernel program's spelling of the edge aggregation is `aggregate`: widening the gathered rows back is the
    identity on extended reals. -/
theorem aggregate_eq (rows cols : (⟨S800000, .i32⟩ : BufTy).Contents (Elt Ideal))
    (vals : (⟨S800000, .f32⟩ : BufTy).Contents (Elt Ideal)) (S : (⟨S50000x128, .bf16⟩ : BufTy).Contents (Elt Ideal)) :
    Host.scatterAdd scatter_S50000x128_S800000x1_S800000x128_1_0_0_1
        (broadcastInDim S50000x128 ![] bcast_S_S50000x128 (constant S_ .f32 0x00000000#32))
        (broadcastInDim S800000x1 ![0] bcast_S800000_S800000x1_0 rows)
        (mulf
          (broadcastInDim S800000x128 ![0, 1] bcast_S800000x1_S800000x128_0_1
            (broadcastInDim S800000x1 ![0] bcast_S800000_S800000x1_0 vals))
          (extf .f32
            (Host.gather gather_S50000x128_S800000x1_S800000x128_1_0_n_n_0_1_1128 S
              (broadcastInDim S800000x1 ![0] bcast_S800000_S800000x1_0
                (select (cmpi .slt cols (broadcastInDim S800000 ![] bcast_S_S800000 (constantI S_ 32 0#32)))
                  (addi cols (broadcastInDim S800000 ![] bcast_S_S800000 (constantI S_ 32 50000#32))) cols)))
            bitsLt_bf16_f32))
      = Cert.Gcn.aggregate rows cols vals S := rfl

variable (m : (ℓ : Loc nD τ sig) → Buf (Elt Ideal) ℓ) (ρ : Dev nD → PrngReg) (c : Dev nD)

/-! ## Buffers no region and no host operation has written yet hold their launch contents -/

/-- After region 0 a buffer that is none of its arrays holds its launch contents. -/
theorem W1_keep (b : Ref sig .tc) (h0 : ∀ w, Pipeline.arrRef spec0 w ≠ b) :
    W1 m ρ c (Proc.devRef .tc b) = m ((c : Thread nD τ).loc b) :=
  W1_of_ne m ρ c b h0

/-- After the first host stretch likewise, for a buffer the stretch does not write. -/
theorem W2_keep (b : Ref sig .tc) (h0 : ∀ w, Pipeline.arrRef spec0 w ≠ b)
    (hh : W2 m ρ c (Proc.devRef .tc b) = W1 m ρ c (Proc.devRef .tc b)) :
    W2 m ρ c (Proc.devRef .tc b) = m ((c : Thread nD τ).loc b) :=
  hh.trans (W1_keep m ρ c b h0)

/-- After region 1 likewise, for a buffer that is none of its arrays either. -/
theorem W3_keep (b : Ref sig .tc) (h0 : ∀ w, Pipeline.arrRef spec0 w ≠ b) (h1 : ∀ w, Pipeline.arrRef spec1 w ≠ b)
    (hh : W2 m ρ c (Proc.devRef .tc b) = W1 m ρ c (Proc.devRef .tc b)) :
    W3 m ρ c (Proc.devRef .tc b) = m ((c : Thread nD τ).loc b) :=
  (W3_of_ne m ρ c b h1).trans (W2_keep m ρ c b h0 hh)

theorem hk1 : W2 m ρ c (Proc.devRef .tc main_arg1) = W1 m ρ c (Proc.devRef .tc main_arg1) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk2 : W2 m ρ c (Proc.devRef .tc main_arg2) = W1 m ρ c (Proc.devRef .tc main_arg2) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk3 : W2 m ρ c (Proc.devRef .tc main_arg3) = W1 m ρ c (Proc.devRef .tc main_arg3) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk6 : W2 m ρ c (Proc.devRef .tc main_arg6) = W1 m ρ c (Proc.devRef .tc main_arg6) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk7 : W2 m ρ c (Proc.devRef .tc main_arg7) = W1 m ρ c (Proc.devRef .tc main_arg7) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk8 : W2 m ρ c (Proc.devRef .tc main_arg8) = W1 m ρ c (Proc.devRef .tc main_arg8) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk9 : W2 m ρ c (Proc.devRef .tc main_arg9) = W1 m ρ c (Proc.devRef .tc main_arg9) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk10 : W2 m ρ c (Proc.devRef .tc main_arg10) = W1 m ρ c (Proc.devRef .tc main_arg10) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk11 : W2 m ρ c (Proc.devRef .tc main_arg11) = W1 m ρ c (Proc.devRef .tc main_arg11) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk12 : W2 m ρ c (Proc.devRef .tc main_arg12) = W1 m ρ c (Proc.devRef .tc main_arg12) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk13 : W2 m ρ c (Proc.devRef .tc main_arg13) = W1 m ρ c (Proc.devRef .tc main_arg13) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk14 : W2 m ρ c (Proc.devRef .tc main_arg14) = W1 m ρ c (Proc.devRef .tc main_arg14) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem hk15 : W2 m ρ c (Proc.devRef .tc main_arg15) = W1 m ρ c (Proc.devRef .tc main_arg15) := StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## Region 0 and the first host stretch -/

/-- The first support: the product of the node features by the first weight. -/
theorem W1_support : W1 m ρ c (Proc.devRef .tc main_v0) = Cert.Gcn.mm128 (m ((c : Thread nD τ).loc main_arg0)) (m ((c : Thread nD τ).loc main_arg4)) :=
  (W1_arr m ρ c 2).trans (Cert.Gcn.Plain.final (V0 m ρ) c)

/-- Region 1's first operand: the aggregation of the first support. -/
theorem W2_agg : W2 m ρ c (Proc.devRef .tc main_v14)
    = Cert.Gcn.aggregate (m ((c : Thread nD τ).loc main_arg1)) (m ((c : Thread nD τ).loc main_arg2)) (m ((c : Thread nD τ).loc main_arg3)) (Cert.Gcn.mm128 (m ((c : Thread nD τ).loc main_arg0)) (m ((c : Thread nD τ).loc main_arg4))) := by
  show StableHlo.after hostOps1 (W1 m ρ c) (Proc.devRef .tc main_v14) = _
  after_results
  rw [W1_support, W1_keep m ρ c main_arg1 (by decide), W1_keep m ρ c main_arg2 (by decide),
    W1_keep m ρ c main_arg3 (by decide)]
  exact aggregate_eq _ _ _ _

/-- Region 1's second operand: the first bias as a row. -/
theorem W2_bias : W2 m ρ c (Proc.devRef .tc main_v15) = shapeCast S1x128 (m ((c : Thread nD τ).loc main_arg5)) shapeCasts_S128_S1x128 := by
  show StableHlo.after hostOps1 (W1 m ρ c) (Proc.devRef .tc main_v15) = _
  after_results
  rw [W1_keep m ρ c main_arg5 (by decide)]
  rfl

/-! ## Region 1 and the second host stretch -/

/-- The second support: the product of the rectified first layer by the second weight. -/
theorem W3_support : W3 m ρ c (Proc.devRef .tc main_v16)
    = Cert.Gcn.mm128 (Cert.Gcn.preact
        (Cert.Gcn.aggregate (m ((c : Thread nD τ).loc main_arg1)) (m ((c : Thread nD τ).loc main_arg2)) (m ((c : Thread nD τ).loc main_arg3)) (Cert.Gcn.mm128 (m ((c : Thread nD τ).loc main_arg0)) (m ((c : Thread nD τ).loc main_arg4))))
        (shapeCast S1x128 (m ((c : Thread nD τ).loc main_arg5)) shapeCasts_S128_S1x128)) (m ((c : Thread nD τ).loc main_arg6)) := by
  refine (W3_arr m ρ c 3).trans ((Cert.Gcn.Preact.final (V2 m ρ) c).trans ?_)
  show Cert.Gcn.mm128 (Cert.Gcn.preact (W2 m ρ c (Proc.devRef .tc main_v14)) (W2 m ρ c (Proc.devRef .tc main_v15)))
    (W2 m ρ c (Proc.devRef .tc main_arg6)) = _
  rw [W2_agg, W2_bias, W2_keep m ρ c main_arg6 (by decide) (hk6 m ρ c)]

/-! ## The second host stretch: region 2's operands -/

/-- The support the second aggregation gathers from. -/
abbrev support1 : Cert.Gcn.Mat Cert.ReferenceIdeal.S50000x128 :=
  Cert.Gcn.mm128 (Cert.Gcn.preact
    (Cert.Gcn.aggregate (m ((c : Thread nD τ).loc main_arg1)) (m ((c : Thread nD τ).loc main_arg2)) (m ((c : Thread nD τ).loc main_arg3)) (Cert.Gcn.mm128 (m ((c : Thread nD τ).loc main_arg0)) (m ((c : Thread nD τ).loc main_arg4))))
    (shapeCast S1x128 (m ((c : Thread nD τ).loc main_arg5)) shapeCasts_S128_S1x128)) (m ((c : Thread nD τ).loc main_arg6))

/-- The hidden array, the two bias vectors reshaped to rows. -/
abbrev hiddenArr : Cert.Gcn.Mat Cert.ReferenceIdeal.S50000x128 :=
  Cert.Gcn.preact (Cert.Gcn.aggregate (m ((c : Thread nD τ).loc main_arg1)) (m ((c : Thread nD τ).loc main_arg2)) (m ((c : Thread nD τ).loc main_arg3)) (support1 m c))
    (shapeCast S1x128 (m ((c : Thread nD τ).loc main_arg7)) shapeCasts_S128_S1x128)

/-- The first packed weight `[Wm1 | Wv1]`. -/
abbrev w1Packed : Cert.Gcn.Mat Cert.ReferenceIdeal.S128x128 :=
  concatenate S128x128 1 [⟨S128x64, m ((c : Thread nD τ).loc main_arg8)⟩, ⟨S128x64, m ((c : Thread nD τ).loc main_arg12)⟩] concatenates_S128x64_S128x64_S128x128_d1
/-- The first packed bias `[bm1 | bv1]` as a row. -/
abbrev b1Packed : Cert.Gcn.Mat Cert.ReferenceIdeal.S1x128 :=
  shapeCast S1x128 (concatenate S128 0 [⟨S64, m ((c : Thread nD τ).loc main_arg9)⟩, ⟨S64, m ((c : Thread nD τ).loc main_arg13)⟩] concatenates_S64_S64_S128_d0) shapeCasts_S128_S1x128
/-- The second packed weight `diag (Wm2, Wv2)`. -/
abbrev w2Packed : Cert.Gcn.Mat Cert.ReferenceIdeal.S128x128 :=
  concatenate S128x128 0
    [⟨S64x128, concatenate S64x128 1 [⟨S64x64, m ((c : Thread nD τ).loc main_arg10)⟩, ⟨S64x64, (broadcastInDim S64x64 ![] bcast_S_S64x64 (constant S_ .f32 0x00000000#32))⟩] concatenates_S64x64_S64x64_S64x128_d1⟩,
     ⟨S64x128, concatenate S64x128 1 [⟨S64x64, (broadcastInDim S64x64 ![] bcast_S_S64x64 (constant S_ .f32 0x00000000#32))⟩, ⟨S64x64, m ((c : Thread nD τ).loc main_arg14)⟩] concatenates_S64x64_S64x64_S64x128_d1⟩]
    concatenates_S64x128_S64x128_S128x128_d0
/-- The second packed bias `[bm2 | bv2]` as a row. -/
abbrev b2Packed : Cert.Gcn.Mat Cert.ReferenceIdeal.S1x128 :=
  shapeCast S1x128 (concatenate S128 0 [⟨S64, m ((c : Thread nD τ).loc main_arg11)⟩, ⟨S64, m ((c : Thread nD τ).loc main_arg15)⟩] concatenates_S64_S64_S128_d0) shapeCasts_S128_S1x128

theorem W4_agg : W4 m ρ c (Proc.devRef .tc main_v30)
    = Cert.Gcn.aggregate (m ((c : Thread nD τ).loc main_arg1)) (m ((c : Thread nD τ).loc main_arg2)) (m ((c : Thread nD τ).loc main_arg3)) (support1 m c) := by
  show StableHlo.after hostOps2 (W3 m ρ c) (Proc.devRef .tc main_v30) = _
  after_results
  rw [W3_support, W3_keep m ρ c main_arg1 (by decide) (by decide) (hk1 m ρ c),
    W3_keep m ρ c main_arg2 (by decide) (by decide) (hk2 m ρ c),
    W3_keep m ρ c main_arg3 (by decide) (by decide) (hk3 m ρ c)]
  exact aggregate_eq _ _ _ _

theorem W4_bias : W4 m ρ c (Proc.devRef .tc main_v38) = shapeCast S1x128 (m ((c : Thread nD τ).loc main_arg7)) shapeCasts_S128_S1x128 := by
  show StableHlo.after hostOps2 (W3 m ρ c) (Proc.devRef .tc main_v38) = _
  after_results
  rw [W3_keep m ρ c main_arg7 (by decide) (by decide) (hk7 m ρ c)]
  rfl

theorem W4_w1 : W4 m ρ c (Proc.devRef .tc main_v31) = w1Packed m c := by
  show StableHlo.after hostOps2 (W3 m ρ c) (Proc.devRef .tc main_v31) = _
  after_results
  rw [W3_keep m ρ c main_arg8 (by decide) (by decide) (hk8 m ρ c),
    W3_keep m ρ c main_arg12 (by decide) (by decide) (hk12 m ρ c)]

theorem W4_b1 : W4 m ρ c (Proc.devRef .tc main_v39) = b1Packed m c := by
  show StableHlo.after hostOps2 (W3 m ρ c) (Proc.devRef .tc main_v39) = _
  after_results
  rw [W3_keep m ρ c main_arg9 (by decide) (by decide) (hk9 m ρ c),
    W3_keep m ρ c main_arg13 (by decide) (by decide) (hk13 m ρ c)]
  rfl

theorem W4_w2 : W4 m ρ c (Proc.devRef .tc main_v36) = w2Packed m c := by
  show StableHlo.after hostOps2 (W3 m ρ c) (Proc.devRef .tc main_v36) = _
  after_results
  rw [W3_keep m ρ c main_arg10 (by decide) (by decide) (hk10 m ρ c),
    W3_keep m ρ c main_arg14 (by decide) (by decide) (hk14 m ρ c)]

theorem W4_b2 : W4 m ρ c (Proc.devRef .tc main_v40) = b2Packed m c := by
  show StableHlo.after hostOps2 (W3 m ρ c) (Proc.devRef .tc main_v40) = _
  after_results
  rw [W3_keep m ρ c main_arg11 (by decide) (by decide) (hk11 m ρ c),
    W3_keep m ρ c main_arg15 (by decide) (by decide) (hk15 m ρ c)]
  rfl

/-! ## Region 2 and the last host stretch -/

/-- Region 2's output: the packed head of the hidden array. -/
theorem W5_out : W5 m ρ c (Proc.devRef .tc main_v41)
    = Cert.Gcn.packed (hiddenArr m c) (w1Packed m c) (b1Packed m c) (w2Packed m c) (b2Packed m c) := by
  refine (W5_arr m ρ c 6).trans ((Cert.Gcn.Heads.final (V4 m ρ) c).trans ?_)
  show Cert.Gcn.packed (Cert.Gcn.preact (W4 m ρ c (Proc.devRef .tc main_v30)) (W4 m ρ c (Proc.devRef .tc main_v38)))
    (W4 m ρ c (Proc.devRef .tc main_v31)) (W4 m ρ c (Proc.devRef .tc main_v39))
    (W4 m ρ c (Proc.devRef .tc main_v36)) (W4 m ρ c (Proc.devRef .tc main_v40)) = _
  rw [W4_agg, W4_bias, W4_w1, W4_b1, W4_w2, W4_b2]

/-- The first result: columns 0 … 63 of the packed head. -/
theorem W6_left : W6 m ρ c (Proc.devRef .tc main_v42)
    = extractStridedSlice S50000x64 ![0, 0]
        (Cert.Gcn.packed (hiddenArr m c) (w1Packed m c) (b1Packed m c) (w2Packed m c) (b2Packed m c))
        slices_S50000x128_S50000x64_0_0 := by
  show StableHlo.after hostOps3 (W5 m ρ c) (Proc.devRef .tc main_v42) = _
  after_results
  rw [W5_out]

/-- The second result: columns 64 … 127 of the packed head. -/
theorem W6_right : W6 m ρ c (Proc.devRef .tc main_v43)
    = extractStridedSlice S50000x64 ![0, 64]
        (Cert.Gcn.packed (hiddenArr m c) (w1Packed m c) (b1Packed m c) (w2Packed m c) (b2Packed m c))
        slices_S50000x128_S50000x64_0_64 := by
  show StableHlo.after hostOps3 (W5 m ρ c) (Proc.devRef .tc main_v43) = _
  after_results
  rw [W5_out]

end Cert.Gcn.Kernel

end
-- ==== Proof.Head.lean ====
/-
  The packed head is the two heads side by side.

  With `W1 = [Wm1 | Wv1]` (columns 0 … 63 from `Wm1`, 64 … 127 from `Wv1`), `b1 = [bm1 | bv1]`,
  `W2 = diag (Wm2, Wv2)` (its two off-diagonal 64 × 64 blocks zero) and `b2 = [bm2 | bv2]`, the
  array `max (H · W1 + b1) 0 · W2 + b2 : [50000, 128]` has, at row `p` and column `q < 64`,
      Σ_{k < 128} max ((H · W1)[p, k] + b1[k]) 0 · W2[k, q] + b2[q]
    = Σ_{k < 64} max ((H · Wm1)[p, k] + bm1[k]) 0 · Wm2[k, q] + bm2[q]
  since for `k ≥ 64` the factor `W2[k, q]` is zero and `x · 0 = 0` for every extended real `x`;
  for `k < 64`, `(H · W1)[p, k] = Σ_j H[p, j] · Wm1[j, k]`.  The right half is the same with the
  roles of the blocks exchanged.  No finiteness is used: only `x · 0 = 0`, `a + 0 = a`, and the
  splitting of a sum over 128 indices into its two halves.
-/
import proofs.«132768_j6597069767366_2_alg».proof.Proof.Layers
import proofs.«132768_j6597069767366_2_alg».proof.Proof.LibDot2
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Mathlib.Algebra.BigOperators.Fin

noncomputable section

namespace Cert.Gcn

open Cert.ReferenceIdeal Cert.ReferenceIdeal.Gen Idealize.ShloMosaic Idealize.ShloMosaic.TcCoe Idealize.ShloMosaic.ValueIdx

/-- The shape `[64, 128]` of one block row of the block-diagonal weight. -/
abbrev S64x128 : Shape := ⟨2, ![64, 128]⟩

open scoped BigOperators

/-! ## The three products read at an index -/

private theorem mm128_apply (X : Mat S50000x128) (W : Mat S128x128) (p : Fin 50000) (q : Fin 128) :
    mm128 X W (ix2 p q) = ∑ k : Fin 128, X (ix2 p k) * W (ix2 k q) :=
  Dot2.host_dotGeneral_mm_apply _ none X W p q

private theorem mm128x64_apply (X : Mat S50000x128) (W : Mat S128x64) (p : Fin 50000) (q : Fin 64) :
    mm128x64 X W (ix2 p q) = ∑ k : Fin 128, X (ix2 p k) * W (ix2 k q) :=
  Dot2.host_dotGeneral_mm_apply _ none X W p q

private theorem mm64_apply (X : Mat S50000x64) (W : Mat S64x64) (p : Fin 50000) (q : Fin 64) :
    mm64 X W (ix2 p q) = ∑ k : Fin 64, X (ix2 p k) * W (ix2 k q) :=
  Dot2.host_dotGeneral_mm_apply _ none X W p q

/-! ## Rows, biases and zeros read at an index -/

private theorem asRow128_apply (b : Mat S128) (u : Fin 1) (q : Fin 128) : asRow128 b (ix2 u q) = b (ix1 q) :=
  broadcastInDim_apply _ _ b (ix2 u q) (ix1 q) (fun a => match a with | ⟨0, _⟩ => rfl)

private theorem asRow64_apply (b : Mat S64) (u : Fin 1) (q : Fin 64) : asRow64 b (ix2 u q) = b (ix1 q) :=
  broadcastInDim_apply _ _ b (ix2 u q) (ix1 q) (fun a => match a with | ⟨0, _⟩ => rfl)

private theorem rowBias128_apply (B : Mat S1x128) (p : Fin 50000) (q : Fin 128) :
    rowBias128 B (ix2 p q) = B (ix2 (0 : Fin 1) q) :=
  broadcastInDim_apply _ _ B (ix2 p q) (ix2 (0 : Fin 1) q)
    (fun a => match a with | ⟨0, _⟩ => rfl | ⟨1, _⟩ => rfl)

private theorem rowBias64_apply (B : Mat S1x64) (p : Fin 50000) (q : Fin 64) :
    rowBias64 B (ix2 p q) = B (ix2 (0 : Fin 1) q) :=
  broadcastInDim_apply _ _ B (ix2 p q) (ix2 (0 : Fin 1) q)
    (fun a => match a with | ⟨0, _⟩ => rfl | ⟨1, _⟩ => rfl)

private theorem zeros128_apply (j : S50000x128.Idx) : zeros128 j = 0 :=
  (broadcastInDim_scalar_apply _ _ j).trans ((constant_apply _ _).trans Ideal.ofBits_zero_f32)

private theorem zeros64_apply (j : S50000x64.Idx) : zeros64 j = 0 :=
  (broadcastInDim_scalar_apply _ _ j).trans ((constant_apply _ _).trans Ideal.ofBits_zero_f32)

private theorem preact_apply (A : Mat S50000x128) (B : Mat S1x128) (p : Fin 50000) (q : Fin 128) :
    preact A B (ix2 p q) = max (A (ix2 p q) + B (ix2 (0 : Fin 1) q)) 0 := by
  show max (A (ix2 p q) + rowBias128 B (ix2 p q)) (zeros128 (ix2 p q)) = _
  rw [rowBias128_apply, zeros128_apply]

private theorem preact64_apply (A : Mat S50000x64) (B : Mat S1x64) (p : Fin 50000) (q : Fin 64) :
    preact64 A B (ix2 p q) = max (A (ix2 p q) + B (ix2 (0 : Fin 1) q)) 0 := by
  show max (A (ix2 p q) + rowBias64 B (ix2 p q)) (zeros64 (ix2 p q)) = _
  rw [rowBias64_apply, zeros64_apply]

/-! ## The two halves of 128 columns -/

/-- Column `k` of the first 64 of 128 columns. -/
private abbrev lo (k : Fin 64) : Fin 128 := ⟨k.val, by omega⟩
/-- Column `k` of the last 64 of 128 columns. -/
private abbrev hi (k : Fin 64) : Fin 128 := ⟨64 + k.val, by omega⟩

/-- A sum over 128 indices is the sum over its first 64 plus the sum over its last 64. -/
private theorem sum_halves (f : Fin 128 → EReal) :
    ∑ k : Fin 128, f k = ∑ k : Fin 64, f (lo k) + ∑ k : Fin 64, f (hi k) :=
  Fin.sum_univ_add (a := 64) (b := 64) f

/-- A length-128 vector reshaped to a `[1, 128]` row is the same row as the vector broadcast along a new
    leading unit axis: both hold `b[q]` at `(0, q)`. -/
theorem reshape_eq_asRow128 (b : Mat S128) (h : S128.ShapeCasts S1x128) :
    shapeCast S1x128 b h = asRow128 b := by
  funext j
  obtain ⟨u, q, rfl⟩ : ∃ (u : Fin 1) (q : Fin 128), j = ix2 u q := ⟨j 0, j 1, eq_ix2 j⟩
  exact (shapeCast_a_1a_apply b h u q).trans (asRow128_apply b u q).symm

/-- The packed weights and biases, spelt with the layout operations that build them. -/
def packW1 (hc : Shape.Concatenates [S128x64, S128x64] S128x128 1) (Wm1 Wv1 : Mat S128x64) : Mat S128x128 :=
  concatenate S128x128 1 [⟨S128x64, Wm1⟩, ⟨S128x64, Wv1⟩] hc
def packB (hc : Shape.Concatenates [S64, S64] S128 0) (hr : S128.ShapeCasts S1x128) (bm bv : Mat S64) : Mat S1x128 :=
  shapeCast S1x128 (concatenate S128 0 [⟨S64, bm⟩, ⟨S64, bv⟩] hc) hr
def packW2 (hz : S_.BroadcastsInDim S64x64 (![] : Fin 0 → Fin S64x64.rank))
    (hc1 : Shape.Concatenates [S64x64, S64x64] S64x128 1)
    (hc0 : Shape.Concatenates [S64x128, S64x128] S128x128 0) (Wm2 Wv2 : Mat S64x64) : Mat S128x128 :=
  concatenate S128x128 0
    [⟨S64x128, concatenate S64x128 1 [⟨S64x64, Wm2⟩, ⟨S64x64, broadcastInDim S64x64 ![] hz (constant S_ .f32 0x00000000#32)⟩] hc1⟩,
     ⟨S64x128, concatenate S64x128 1 [⟨S64x64, broadcastInDim S64x64 ![] hz (constant S_ .f32 0x00000000#32)⟩, ⟨S64x64, Wv2⟩] hc1⟩] hc0

/-! ## The packed weights and biases read at an index -/

section
variable (hcW1 : Shape.Concatenates [S128x64, S128x64] S128x128 1)
  (hcB : Shape.Concatenates [S64, S64] S128 0) (hr : S128.ShapeCasts S1x128)
  (hz : S_.BroadcastsInDim S64x64 (![] : Fin 0 → Fin S64x64.rank))
  (hc1 : Shape.Concatenates [S64x64, S64x64] S64x128 1)
  (hc0 : Shape.Concatenates [S64x128, S64x128] S128x128 0)
  (Wm1 Wv1 : Mat S128x64) (bm bv : Mat S64) (Wm2 Wv2 : Mat S64x64)

private theorem packW1_lo (j : Fin 128) (k : Fin 64) : packW1 hcW1 Wm1 Wv1 (ix2 j (lo k)) = Wm1 (ix2 j k) :=
  concatenate_pair_apply_left 1 Wm1 Wv1 hcW1 (ix2 j (lo k)) rfl (ix2 j k)
    (fun b => match b with | ⟨0, _⟩ => rfl | ⟨1, _⟩ => rfl)

private theorem packW1_hi (j : Fin 128) (k : Fin 64) : packW1 hcW1 Wm1 Wv1 (ix2 j (hi k)) = Wv1 (ix2 j k) :=
  concatenate_pair_apply_right 1 Wm1 Wv1 hcW1 (ix2 j (hi k)) rfl rfl (ix2 j k)
    (fun b => match b with | ⟨0, _⟩ => fun _ => rfl | ⟨1, _⟩ => fun h => absurd rfl h)
    (Nat.add_comm _ _)

private theorem packB_lo (u : Fin 1) (k : Fin 64) : packB hcB hr bm bv (ix2 u (lo k)) = bm (ix1 k) :=
  (shapeCast_a_1a_apply _ hr u (lo k)).trans
    (concatenate_pair_apply_left 0 bm bv hcB (ix1 (lo k)) rfl (ix1 k) (fun b => match b with | ⟨0, _⟩ => rfl))

private theorem packB_hi (u : Fin 1) (k : Fin 64) : packB hcB hr bm bv (ix2 u (hi k)) = bv (ix1 k) :=
  (shapeCast_a_1a_apply _ hr u (hi k)).trans
    (concatenate_pair_apply_right 0 bm bv hcB (ix1 (hi k)) rfl rfl (ix1 k)
      (fun b => match b with | ⟨0, _⟩ => fun h => absurd rfl h) (Nat.add_comm _ _))

/-- The zero block of the block-diagonal weight holds 0 everywhere. -/
private theorem zeroBlock_apply (i : S64x64.Idx) :
    (broadcastInDim S64x64 ![] hz (constant S_ .f32 0x00000000#32) : Mat S64x64) i = 0 :=
  (broadcastInDim_scalar_apply hz _ i).trans ((constant_apply _ _).trans Ideal.ofBits_zero_f32)

private theorem packW2_lo_lo (k q : Fin 64) : packW2 hz hc1 hc0 Wm2 Wv2 (ix2 (lo k) (lo q)) = Wm2 (ix2 k q) := by
  unfold packW2
  refine (concatenate_pair_apply_left 0 _ _ hc0 (ix2 (lo k) (lo q)) rfl (ix2 k (lo q))
    (fun b => match b with | ⟨0, _⟩ => rfl | ⟨1, _⟩ => rfl)).trans ?_
  exact concatenate_pair_apply_left 1 _ _ hc1 (ix2 k (lo q)) rfl (ix2 k q)
    (fun b => match b with | ⟨0, _⟩ => rfl | ⟨1, _⟩ => rfl)

private theorem packW2_lo_hi (k q : Fin 64) : packW2 hz hc1 hc0 Wm2 Wv2 (ix2 (lo k) (hi q)) = 0 := by
  unfold packW2
  refine (concatenate_pair_apply_left 0 _ _ hc0 (ix2 (lo k) (hi q)) rfl (ix2 k (hi q))
    (fun b => match b with | ⟨0, _⟩ => rfl | ⟨1, _⟩ => rfl)).trans ?_
  refine (concatenate_pair_apply_right 1 _ _ hc1 (ix2 k (hi q)) rfl rfl (ix2 k q)
    (fun b => match b with | ⟨0, _⟩ => fun _ => rfl | ⟨1, _⟩ => fun h => absurd rfl h)
    (Nat.add_comm _ _)).trans ?_
  exact zeroBlock_apply hz _

private theorem packW2_hi_lo (k q : Fin 64) : packW2 hz hc1 hc0 Wm2 Wv2 (ix2 (hi k) (lo q)) = 0 := by
  unfold packW2
  refine (concatenate_pair_apply_right 0 _ _ hc0 (ix2 (hi k) (lo q)) rfl rfl (ix2 k (lo q))
    (fun b => match b with | ⟨0, _⟩ => fun h => absurd rfl h | ⟨1, _⟩ => fun _ => rfl)
    (Nat.add_comm _ _)).trans ?_
  refine (concatenate_pair_apply_left 1 _ _ hc1 (ix2 k (lo q)) rfl (ix2 k q)
    (fun b => match b with | ⟨0, _⟩ => rfl | ⟨1, _⟩ => rfl)).trans ?_
  exact zeroBlock_apply hz _

private theorem packW2_hi_hi (k q : Fin 64) : packW2 hz hc1 hc0 Wm2 Wv2 (ix2 (hi k) (hi q)) = Wv2 (ix2 k q) := by
  unfold packW2
  refine (concatenate_pair_apply_right 0 _ _ hc0 (ix2 (hi k) (hi q)) rfl rfl (ix2 k (hi q))
    (fun b => match b with | ⟨0, _⟩ => fun h => absurd rfl h | ⟨1, _⟩ => fun _ => rfl)
    (Nat.add_comm _ _)).trans ?_
  exact concatenate_pair_apply_right 1 _ _ hc1 (ix2 k (hi q)) rfl rfl (ix2 k q)
    (fun b => match b with | ⟨0, _⟩ => fun _ => rfl | ⟨1, _⟩ => fun h => absurd rfl h)
    (Nat.add_comm _ _)

/-! ## The hidden layer of the packed head, half by half -/

variable (H : Mat S50000x128)

private theorem hid_lo (p : Fin 50000) (k : Fin 64) :
    preact (mm128 H (packW1 hcW1 Wm1 Wv1)) (packB hcB hr bm bv) (ix2 p (lo k))
      = preact64 (mm128x64 H Wm1) (asRow64 bm) (ix2 p k) := by
  rw [preact_apply, preact64_apply, mm128_apply, mm128x64_apply, packB_lo, asRow64_apply]
  simp only [packW1_lo]

private theorem hid_hi (p : Fin 50000) (k : Fin 64) :
    preact (mm128 H (packW1 hcW1 Wm1 Wv1)) (packB hcB hr bm bv) (ix2 p (hi k))
      = preact64 (mm128x64 H Wv1) (asRow64 bv) (ix2 p k) := by
  rw [preact_apply, preact64_apply, mm128_apply, mm128x64_apply, packB_hi, asRow64_apply]
  simp only [packW1_hi]

end

section
variable (hcW1 : Shape.Concatenates [S128x64, S128x64] S128x128 1)
  (hcB : Shape.Concatenates [S64, S64] S128 0) (hr : S128.ShapeCasts S1x128)
  (hz : S_.BroadcastsInDim S64x64 (![] : Fin 0 → Fin S64x64.rank))
  (hc1 : Shape.Concatenates [S64x64, S64x64] S64x128 1)
  (hc0 : Shape.Concatenates [S64x128, S64x128] S128x128 0)
  (H : Mat S50000x128) (Wm1 Wv1 : Mat S128x64) (bm1 bv1 : Mat S64) (Wm2 Wv2 : Mat S64x64) (bm2 bv2 : Mat S64)

/-- Columns 0 … 63 of the packed head are the first head. -/
theorem packed_left (hs : S50000x128.Slices ![0, 0] S50000x64) :
    extractStridedSlice S50000x64 ![0, 0]
        (packed H (packW1 hcW1 Wm1 Wv1) (packB hcB hr bm1 bv1) (packW2 hz hc1 hc0 Wm2 Wv2) (packB hcB hr bm2 bv2)) hs
      = head H Wm1 bm1 Wm2 bm2 := by
  funext j
  obtain ⟨p, q, rfl⟩ : ∃ (p : Fin 50000) (q : Fin 64), j = ix2 p q := ⟨j 0, j 1, eq_ix2 j⟩
  refine (slice2_axis1_apply 0 _ hs p q (lo q) (Nat.zero_add _).symm).trans ?_
  show mm128 _ _ (ix2 p (lo q)) + rowBias128 _ (ix2 p (lo q)) = mm64 _ _ (ix2 p q) + rowBias64 _ (ix2 p q)
  rw [mm128_apply, mm64_apply, rowBias128_apply, rowBias64_apply, packB_lo, asRow64_apply, sum_halves]
  simp only [packW2_lo_lo, packW2_hi_lo, hid_lo, mul_zero, Finset.sum_const_zero, add_zero]

/-- Columns 64 … 127 of the packed head are the second head. -/
theorem packed_right (hs : S50000x128.Slices ![0, 64] S50000x64) :
    extractStridedSlice S50000x64 ![0, 64]
        (packed H (packW1 hcW1 Wm1 Wv1) (packB hcB hr bm1 bv1) (packW2 hz hc1 hc0 Wm2 Wv2) (packB hcB hr bm2 bv2)) hs
      = head H Wv1 bv1 Wv2 bv2 := by
  funext j
  obtain ⟨p, q, rfl⟩ : ∃ (p : Fin 50000) (q : Fin 64), j = ix2 p q := ⟨j 0, j 1, eq_ix2 j⟩
  refine (slice2_axis1_apply 64 _ hs p q (hi q) rfl).trans ?_
  show mm128 _ _ (ix2 p (hi q)) + rowBias128 _ (ix2 p (hi q)) = mm64 _ _ (ix2 p q) + rowBias64 _ (ix2 p q)
  rw [mm128_apply, mm64_apply, rowBias128_apply, rowBias64_apply, packB_hi, asRow64_apply, sum_halves]
  simp only [packW2_lo_hi, packW2_hi_hi, hid_hi, mul_zero, Finset.sum_const_zero, zero_add]

end

end Cert.Gcn

end
-- ==== Proof.KernelHeads.lean ====
/-
  The kernel program's two results are the two heads of the hidden array.

  Each result is a 64-column slice of the packed head (the boundary chain); the packed head's left
  half is the first head and its right half the second (the block-diagonal lemma); and a bias
  vector reshaped to a row is the vector broadcast to a row, so the hidden array the kernel
  program builds is the one the layer functions name.
-/
import proofs.«132768_j6597069767366_2_alg».proof.Proof.KernelValue
import proofs.«132768_j6597069767366_2_alg».proof.Proof.Head

noncomputable section

namespace Cert.Gcn.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The hidden array the kernel program builds is `hidden` of its arguments. -/
theorem hiddenArr_eq : hiddenArr m c = (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  unfold hiddenArr support1 Cert.Gcn.hidden Cert.Gcn.conv
  rw [Cert.Gcn.reshape_eq_asRow128, Cert.Gcn.reshape_eq_asRow128]

/-- The first result is the first head of the hidden array. -/
theorem left : W6 m ρ c (Proc.devRef .tc main_v42)
    = Cert.Gcn.head (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10)) (m ((c : Thread nD τ).loc main_arg11)) := by
  rw [W6_left, ← hiddenArr_eq]
  exact Cert.Gcn.packed_left concatenates_S128x64_S128x64_S128x128_d1 concatenates_S64_S64_S128_d0
    shapeCasts_S128_S1x128 bcast_S_S64x64 concatenates_S64x64_S64x64_S64x128_d1
    concatenates_S64x128_S64x128_S128x128_d0 (hiddenArr m c) (m ((c : Thread nD τ).loc main_arg8)) (m ((c : Thread nD τ).loc main_arg12)) (m ((c : Thread nD τ).loc main_arg9)) (m ((c : Thread nD τ).loc main_arg13))
    (m ((c : Thread nD τ).loc main_arg10)) (m ((c : Thread nD τ).loc main_arg14)) (m ((c : Thread nD τ).loc main_arg11)) (m ((c : Thread nD τ).loc main_arg15)) slices_S50000x128_S50000x64_0_0

/-- The second result is the second head of the hidden array. -/
theorem right : W6 m ρ c (Proc.devRef .tc main_v43)
    = Cert.Gcn.head (Cert.Gcn.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg12)) (m ((c : Thread nD τ).loc main_arg13)) (m ((c : Thread nD τ).loc main_arg14)) (m ((c : Thread nD τ).loc main_arg15)) := by
  rw [W6_right, ← hiddenArr_eq]
  exact Cert.Gcn.packed_right concatenates_S128x64_S128x64_S128x128_d1 concatenates_S64_S64_S128_d0
    shapeCasts_S128_S1x128 bcast_S_S64x64 concatenates_S64x64_S64x64_S64x128_d1
    concatenates_S64x128_S64x128_S128x128_d0 (hiddenArr m c) (m ((c : Thread nD τ).loc main_arg8)) (m ((c : Thread nD τ).loc main_arg12)) (m ((c : Thread nD τ).loc main_arg9)) (m ((c : Thread nD τ).loc main_arg13))
    (m ((c : Thread nD τ).loc main_arg10)) (m ((c : Thread nD τ).loc main_arg14)) (m ((c : Thread nD τ).loc main_arg11)) (m ((c : Thread nD τ).loc main_arg15)) slices_S50000x128_S50000x64_0_64

end Cert.Gcn.Kernel

end
-- ==== Proof.RefSide.lean ====
/-
  The reference's two results, read as the layer functions of its arguments.

  The reference applies, operation by operation, exactly the host operations the layer functions
  are spelt with: two graph-convolution layers give the hidden array, and each result is one head
  of it.  So its run's composed term IS `head (hidden …) …`, by unfolding the names.
-/
import proofs.«132768_j6597069767366_2_alg».proof.Proof.Gen.ReferenceIdeal.Run
import proofs.«132768_j6597069767366_2_alg».proof.Proof.Layers

noncomputable section

namespace Cert.Gcn.Ref

open Cert.ReferenceIdeal Cert.ReferenceIdeal.Gen Idealize.ShloMosaic Idealize.ShloMosaic.TcCoe Idealize.SL.Sem

set_option maxRecDepth 8192 in
/-- Every weakly fair execution of the reference terminates with its first result at the first
    head of the hidden array, its second at the second head, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44)
          = Cert.Gcn.head (Cert.Gcn.hidden (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread nD τ).loc main_v53)
          = Cert.Gcn.head (Cert.Gcn.hidden (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  Cert.ReferenceIdeal.Value.run (F := Ideal) m ρ

end Cert.Gcn.Ref

end
-- ==== Proof.lean ====
/-
  A two-layer graph convolution with two small heads: the kernel program against the plain reference,
  over the extended reals.

  The kernel program computes each layer's dense product in a kernel region (the second with the
  previous layer's bias and rectifier fused in), keeps the edge aggregation on the host, and
  computes both heads in one region with the weights packed: `W1 = [Wm1 | Wv1]`,
  `W2 = diag (Wm2, Wv2)`; the two results are the left and right 64 columns of that region's
  output.  The reference computes the same layers and the two heads separately.

  At the ideal instance a change of float format is the identity and a kernel's matrix product
  into a zero accumulator is the host's product, so region by region the kernel program's arrays
  are the layer functions of its arguments (the region modules and the boundary chain), and the
  reference's results are those functions by their definition.  The one algebraic fact is that the
  packed head holds the two heads side by side: the off-diagonal blocks of `W2` are zero, and
  `x · 0 = 0` for every extended real, so no finiteness of the inputs is used.

  The three frames are the generated ones (the reference's is its generated run with the results
  dropped); the idealization rewrote nothing, so `preserves` is trivial.
-/
import proofs.«132768_j6597069767366_2_alg».proof.Defs
import proofs.«132768_j6597069767366_2_alg».proof.Proof.Gen.Kernel
import proofs.«132768_j6597069767366_2_alg».proof.Proof.Gen.Kernel.Skeleton
import proofs.«132768_j6597069767366_2_alg».proof.Proof.Gen.Kernel.Launch
import proofs.«132768_j6597069767366_2_alg».proof.Proof.Gen.Kernel.Points
import proofs.«132768_j6597069767366_2_alg».proof.Proof.Gen.Kernel.Frame
import proofs.«132768_j6597069767366_2_alg».proof.Proof.Gen.KernelIdeal
import proofs.«132768_j6597069767366_2_alg».proof.Proof.Gen.KernelIdeal.Skeleton
import proofs.«132768_j6597069767366_2_alg».proof.Proof.Gen.KernelIdeal.Launch
import proofs.«132768_j6597069767366_2_alg».proof.Proof.Gen.KernelIdeal.Points
import proofs.«132768_j6597069767366_2_alg».proof.Proof.Gen.KernelIdeal.Frame
import proofs.«132768_j6597069767366_2_alg».proof.Proof.Gen.ReferenceIdeal
import proofs.«132768_j6597069767366_2_alg».proof.Proof.Gen.Pre_finite_inputs
import proofs.«132768_j6597069767366_2_alg».proof.Proof.KernelRun
import proofs.«132768_j6597069767366_2_alg».proof.Proof.KernelHeads
import proofs.«132768_j6597069767366_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.Gcn.Ref.run m ρ)

/-- Both programs end with the first result at the first head of the hidden array of the (agreeing) arguments
    and the second at the second head. -/
theorem algebraic : Cert.algebraic_KernelIdeal_ReferenceIdeal := by
  intro m ρ m' ρ' _ hagree
  refine ⟨fun c => Cert.Gcn.head (Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Gcn.head (Cert.Gcn.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.Gcn.Kernel.left m ρ c), (h c).2.1.trans (Cert.Gcn.Kernel.right m ρ c), (h c).2.2⟩)
      (Cert.KernelIdeal.Results.run_results (F := Ideal) m ρ)
  · refine (θ_run Cert.ReferenceIdeal.defs _ _).mono (fun r h c => ?_) (Cert.Gcn.Ref.run m' ρ')
    obtain ⟨a0, a1, a2, a3, a4, a5, a6, a7, a8, a9, a10, a11, a12, a13, a14, a15⟩ := hagree c
    refine ⟨(h c).1.trans ?_, (h c).2.1.trans ?_, (h c).2.2⟩
    · rw [a0, a1, a2, a3, a4, a5, a6, a7, a8, a9, a10, a11]
    · rw [a0, a1, a2, a3, a4, a5, a6, a7, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
